-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1000 : Shape := ⟨2, ![131072, 1000]⟩
abbrev S131072 : Shape := ⟨1, ![131072]⟩
abbrev S_ : Shape := ⟨0, ![]⟩

class Facts : Prop where
  bcast_S_S131072x1000 : S_.BroadcastsInDim S131072x1000 (![] : Fin 0 → Fin S131072x1000.rank)
  reducesTo_S131072x1000_S_d0_1 : S131072x1000.ReducesTo [0, 1] S_
  h_S_ : 0 < S_.numel
  bcast_S_S131072 : S_.BroadcastsInDim S131072 (![] : Fin 0 → Fin S131072.rank)
  reducesTo_S131072_S_d0 : S131072.ReducesTo [0] S_

variable [Facts]

def fn {F : FTy → Type} [FloatOps F] (main_arg0 : FVec F S131072x1000 .f32) (main_arg1 : IVec S131072 32) : IVec S_ 1 :=
  let main_v0 : FVec F S131072x1000 .f32 := Host.absf main_arg0
  let main_cst : FVec F S_ .f32 := constant S_ .f32 0x7F800000#32
  let main_v1 : FVec F S131072x1000 .f32 := broadcastInDim S131072x1000 ![] bcast_S_S131072x1000 main_cst
  let main_v2 : IVec S131072x1000 1 := cmpf .olt main_v0 main_v1
  let main_c : IVec S_ 1 := constantI S_ 1 1#1
  let main_v3 : IVec S_ 1 := (fun x v => Host.reduce IntOp.andi x v reducesTo_S131072x1000_S_d0_1 h_S_) main_v2 main_c
  let main_c_0 : IVec S_ 32 := constantI S_ 32 0#32
  let main_v4 : IVec S131072 32 := broadcastInDim S131072 ![] bcast_S_S131072 main_c_0
  let main_v5 : IVec S131072 1 := cmpi .sge main_arg1 main_v4
  let main_c_1 : IVec S_ 32 := constantI S_ 32 1000#32
  let main_v6 : IVec S131072 32 := broadcastInDim S131072 ![] bcast_S_S131072 main_c_1
  let main_v7 : IVec S131072 1 := cmpi .slt main_arg1 main_v6
  let main_v8 : IVec S131072 1 := andi main_v5 main_v7
  let main_c_2 : IVec S_ 1 := constantI S_ 1 1#1
  let main_v9 : IVec S_ 1 := (fun x v => Host.reduce IntOp.andi x v reducesTo_S131072_S_d0 h_S_) main_v8 main_c_2
  let main_v10 : IVec S_ 1 := andi main_v3 main_v9
  main_v10
-- ==== Kernel.lean ====
abbrev S131072x1000 : Shape := ⟨2, ![131072, 1000]⟩
abbrev S131072 : Shape := ⟨1, ![131072]⟩
abbrev S131072x1 : Shape := ⟨2, ![131072, 1]⟩
abbrev S16x128 : Shape := ⟨2, ![16, 128]⟩
abbrev S1024x1000 : Shape := ⟨2, ![1024, 1000]⟩
abbrev S1024x1 : Shape := ⟨2, ![1024, 1]⟩
abbrev S8x128 : Shape := ⟨2, ![8, 128]⟩
abbrev S1x1 : Shape := ⟨2, ![1, 1]⟩
abbrev S1024 : Shape := ⟨1, ![1024]⟩
abbrev S1 : Shape := ⟨1, ![1]⟩
abbrev S_ : Shape := ⟨0, ![]⟩

abbrev nBuf : Space → Nat
  | .hbm => 11
  | .vmem => 7
  | .smem => 0
  | _ => 0

abbrev bufTy : (tb : Table) → Fin (tcTables nBuf tb) → BufTy
  | .hbm, ⟨0, _⟩ => ⟨S131072x1000, .f32⟩
  | .hbm, ⟨1, _⟩ => ⟨S131072, .i32⟩
  | .hbm, ⟨2, _⟩ => ⟨S131072x1, .i32⟩
  | .hbm, ⟨3, _⟩ => ⟨S16x128, .f32⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1024x1000, .f32⟩
  | .local _ .vmem, ⟨1, _⟩ => ⟨S1024x1000, .f32⟩
  | .local _ .vmem, ⟨2, _⟩ => ⟨S1024x1, .i32⟩
  | .local _ .vmem, ⟨3, _⟩ => ⟨S1024x1, .i32⟩
  | .local _ .vmem, ⟨4, _⟩ => ⟨S8x128, .f32⟩
  | .local _ .vmem, ⟨5, _⟩ => ⟨S8x128, .f32⟩
  | .local _ .vmem, ⟨6, _⟩ => ⟨S1x1, .f32⟩
  | _, _ => ⟨S131072x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v30 : BitVec 1 := Scalar.cmpi .eq arg1 c63_i32
  let v31 : BitVec 32 := Scalar.extui v30
  let c0_i32_12 : BitVec 32 := 0#32
  let v32 : BitVec 1 := Scalar.cmpi .ne v31 c0_i32_12
  v32

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S131072_S131072x1 : S131072.ShapeCasts S131072x1
  inb_S1024x1000_S1024x1000_0_0 : ∀ a, (![0, 0] : Fin 2 → Nat) a + S1024x1000.size a ≤ S1024x1000.size a
  h_S1024x1000 : 0 < S1024x1000.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1000_d1_w32 : S1024x1000.Iotas .tc 32 [1]
  broadcasts_S1024x1_S1024x1000 : S1024x1.Broadcasts S1024x1000
  natLt_1_32 : 1 < 32
  reduces_S1024x1000_S1024 : S1024x1000.Reduces [1] S1024
  shapeCasts_S1024_S1024x1 : S1024.ShapeCasts S1024x1
  reduces_S1024x1_S1 : S1024x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inpos_S1x1_p0_0 : ∀ a, (![0, 0] : Fin 2 → Nat) a < S1x1.size a
  iota_S8x128_d0_w32 : S8x128.Iotas .tc 32 [0]
  iota_S8x128_d1_w32 : S8x128.Iotas .tc 32 [1]
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S131072x1000.size a
  hwx0_0 : ∀ i : grid0.Coords, EltTy.bits .f32 = 32 ∨ (Rect.block (s := S131072x1000) S1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S131072x1.size a
  hwx0_1 : ∀ i : grid0.Coords, EltTy.bits .i32 = 32 ∨ (Rect.block (s := S131072x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S131072x1000 : Shape := ⟨2, ![131072, 1000]⟩
abbrev S131072 : Shape := ⟨1, ![131072]⟩
abbrev S131072x1 : Shape := ⟨2, ![131072, 1]⟩
abbrev S_ : Shape := ⟨0, ![]⟩
abbrev S131072x1x1 : Shape := ⟨3, ![131072, 1, 1]⟩
abbrev S1 : Shape := ⟨1, ![1]⟩
abbrev S1x1x1 : Shape := ⟨3, ![1, 1, 1]⟩

abbrev nBuf : Space → Nat
  | .hbm => 41
  | .vmem => 0
  | .smem => 0
  | _ => 0

abbrev bufTy : (tb : Table) → Fin (tcTables nBuf tb) → BufTy
  | .hbm, ⟨0, _⟩ => ⟨S131072x1000, .f32⟩
  | .hbm, ⟨1, _⟩ => ⟨S131072, .i32⟩
  | .hbm, ⟨2, _⟩ => ⟨S131072x1, .i32⟩
  | .hbm, ⟨3, _⟩ => ⟨S_, .i32⟩
  | .hbm, ⟨4, _⟩ => ⟨S131072x1, .i32⟩
  | .hbm, ⟨5, _⟩ => ⟨S131072x1, .i1⟩
  | .hbm, ⟨6, _⟩ => ⟨S_, .i32⟩
  | .hbm, ⟨7, _⟩ => ⟨S131072x1, .i32⟩
  | .hbm, ⟨8, _⟩ => ⟨S131072x1, .i32⟩
  | .hbm, ⟨9, _⟩ => ⟨S131072x1, .i32⟩
  | .hbm, ⟨10, _⟩ => ⟨S131072x1x1, .i32⟩
  | .hbm, ⟨11, _⟩ => ⟨S1, .i32⟩
  | .hbm, ⟨12, _⟩ => ⟨S_, .i32⟩
  | .hbm, ⟨13, _⟩ => ⟨S131072x1x1, .i32⟩
  | .hbm, ⟨14, _⟩ => ⟨S131072x1x1, .i1⟩
  | .hbm, ⟨15, _⟩ => ⟨S1x1x1, .i32⟩
  | .hbm, ⟨16, _⟩ => ⟨S131072x1x1, .i32⟩
  | .hbm, ⟨17, _⟩ => ⟨S131072x1x1, .i1⟩
  | .hbm, ⟨18, _⟩ => ⟨S131072x1x1, .i1⟩
  | .hbm, ⟨19, _⟩ => ⟨S_, .i1⟩
  | .hbm, ⟨20, _⟩ => ⟨S131072x1, .i1⟩
  | .hbm, ⟨21, _⟩ => ⟨S131072x1, .f32⟩
  | .hbm, ⟨22, _⟩ => ⟨S_, .f32⟩
  | .hbm, ⟨23, _⟩ => ⟨S131072x1, .f32⟩
  | .hbm, ⟨24, _⟩ => ⟨S131072x1, .f32⟩
  | .hbm, ⟨25, _⟩ => ⟨S131072, .f32⟩
  | .hbm, ⟨26, _⟩ => ⟨S131072x1000, .f32⟩
  | .hbm, ⟨27, _⟩ => ⟨S_, .f32⟩
  | .hbm, ⟨28, _⟩ => ⟨S131072, .f32⟩
  | .hbm, ⟨29, _⟩ => ⟨S131072, .f32⟩
  | .hbm, ⟨30, _⟩ => ⟨S_, .f32⟩
  | .hbm, ⟨31, _⟩ => ⟨S131072, .f32⟩
  | .hbm, ⟨32, _⟩ => ⟨S131072, .f32⟩
  | .hbm, ⟨33, _⟩ => ⟨S131072, .f32⟩
  | .hbm, ⟨34, _⟩ => ⟨S_, .f32⟩
  | .hbm, ⟨35, _⟩ => ⟨S131072, .f32⟩
  | .hbm, ⟨36, _⟩ => ⟨S131072, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S131072x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_v5 : Ref sig .tc := ⟨.hbm, 29, rfl⟩
abbrev main_cst_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst_1 : Ref sig .tc := ⟨.hbm, 34, rfl⟩
abbrev main_v9 : Ref sig .tc := ⟨.hbm, 35, rfl⟩
abbrev main_v10 : Ref sig .tc := ⟨.hbm, 36, rfl⟩
abbrev main_cst_2 : Ref sig .tc := ⟨.hbm, 37, rfl⟩
abbrev main_v11 : Ref sig .tc := ⟨.hbm, 38, rfl⟩
abbrev main_cst_3 : Ref sig .tc := ⟨.hbm, 39, rfl⟩
abbrev main_v12 : Ref sig .tc := ⟨.hbm, 40, rfl⟩

abbrev nD : Nat := 1
abbrev τ : Topo := Topo.v7x

variable {F : FTy → Type} [FloatOps F]

class Facts₀ : Prop where
  bcast_S131072_S131072x1_0 : S131072.BroadcastsInDim S131072x1 (![0] : Fin 1 → Fin S131072x1.rank)
  bcast_S_S131072x1 : S_.BroadcastsInDim S131072x1 (![] : Fin 0 → Fin S131072x1.rank)
  shapeCasts_S131072x1_S131072x1x1 : S131072x1.ShapeCasts S131072x1x1
  bcast_S_S131072x1x1 : S_.BroadcastsInDim S131072x1x1 (![] : Fin 0 → Fin S131072x1x1.rank)
  bcast_S1_S1x1x1_2 : S1.BroadcastsInDim S1x1x1 (![2] : Fin 1 → Fin S1x1x1.rank)
  bcast_S1x1x1_S131072x1x1_0_1_2 : S1x1x1.BroadcastsInDim S131072x1x1 (![0, 1, 2] : Fin 3 → Fin S131072x1x1.rank)
  reducesTo_S131072x1x1_S131072x1_d2 : S131072x1x1.ReducesTo [2] S131072x1
  h_S_ : 0 < S_.numel
  shapeCasts_S131072x1_S131072 : S131072x1.ShapeCasts S131072
  reducesTo_S131072x1000_S131072_d1 : S131072x1000.ReducesTo [1] S131072
  bcast_S_S131072 : S_.BroadcastsInDim S131072 (![] : Fin 0 → Fin S131072.rank)
  reducesTo_S131072_S_d0 : S131072.ReducesTo [0] S_
  gather_S131072x1000_S131072x1x1_S131072x1_n_1_0_0_1_2_11_wf : GatherDims.WF S131072x1000 S131072x1x1 S131072x1 [] [1] [0] [1] [0] 2 ![1, 1]

variable [Facts₀]

def gather_S131072x1000_S131072x1x1_S131072x1_n_1_0_0_1_2_11 : GatherDims S131072x1000 S131072x1x1 S131072x1 where
  offsetDims := []
  collapsedSliceDims := [1]
  operandBatchingDims := [0]
  startIndicesBatchingDims := [0]
  startIndexMap := [1]
  indexVectorDim := 2
  sliceSizes := ![1, 1]
  wf := gather_S131072x1000_S131072x1x1_S131072x1_n_1_0_0_1_2_11_wf

class Facts : Prop extends Facts₀ where

variable [Facts]
-- ==== Proof.CosineMean.lean ====
/-
  The mathematics both programs compute, and the two laws that join their arrangements.

  For a matrix `x` of 131072 rows and 1000 columns over the extended reals and one label word per row, the
  result is the mean over the rows of `1 - x[i, lᵢ] / max (√(Σ_c x[i, c]²)) ε`. The entry `x[i, lᵢ]` is written
  `pick`: the entry of the row at the column the word names, and `0` when the word names no column (then a
  one-hot mask of the row has no set column and the masked row sums to `0`).

  Law 1 (`onehot_sum`): a row multiplied entry by entry with the indicator of one column and summed is the
  entry at that column; it needs no finiteness, since on the extended reals `a * 0 = 0` and `a * 1 = a` for
  every `a`, the infinities included.
  Law 2 (`halves_sum`): the rows summed in 128 consecutive blocks of 1024, the blocks in two runs of 64 each
  started from zero, is the sum over all rows: sums of extended reals commute and associate.
-/
import Idealize.ShloMosaic.PureOps.Ideal
import Idealize.ShloMosaic.PureOps.Ideal.Laws
import Mathlib.Algebra.BigOperators.Fin
import Mathlib.Algebra.BigOperators.Group.Finset.Basic

noncomputable section

namespace Cert.CosineMean

open Idealize.ShloMosaic

/-- The three float constants of both programs, as the words they are printed with: the clamp `ε`, one, and the
    row count 131072. Each word occurs on both sides and is never evaluated. -/
abbrev epsW : EReal := Ideal.ofBits .f32 0x322BCC77#32
abbrev oneW : EReal := Ideal.ofBits .f32 0x3F800000#32
abbrev cntW : EReal := Ideal.ofBits .f32 0x48000000#32

/-- The entry of a row at the column a label word names; `0` when the word names no column. -/
def pick (row : Fin 1000 → EReal) (l : BitVec 32) : EReal :=
  if h : l.toNat < 1000 then row ⟨l.toNat, h⟩ else 0

/-- One row's loss: one minus the picked entry over the row's Euclidean norm clamped below by `ε`. -/
def rowLoss (row : Fin 1000 → EReal) (l : BitVec 32) : EReal :=
  oneW - Ideal.div (pick row l) (max (Ideal.sqrt (∑ c : Fin 1000, row c * row c)) epsW)

/-- The result: the rows' losses summed and divided by the row count. -/
def mean (x : Fin 131072 → Fin 1000 → EReal) (lab : Fin 131072 → BitVec 32) : EReal :=
  Ideal.div (∑ i : Fin 131072, rowLoss (x i) (lab i)) cntW

/-- LAW 1. A row times the indicator of the column a word names, summed over the columns, is the picked entry. -/
theorem onehot_sum (row : Fin 1000 → EReal) (l : BitVec 32) (msk : Fin 1000 → EReal)
    (hm : ∀ c : Fin 1000, msk c = if c.val = l.toNat then 1 else 0) :
    ∑ c : Fin 1000, row c * msk c = pick row l := by
  unfold pick
  split
  · rename_i h
    rw [Finset.sum_eq_single (⟨l.toNat, h⟩ : Fin 1000)]
    · rw [hm, if_pos rfl, mul_one]
    · intro c _ hc
      rw [hm, if_neg (fun e => hc (Fin.ext e)), mul_zero]
    · intro hc; exact absurd (Finset.mem_univ _) hc
  · rename_i h
    refine Finset.sum_eq_zero fun c _ => ?_
    rw [hm, if_neg (fun e : c.val = l.toNat => h (by rw [← e]; exact c.isLt)), mul_zero]

/-- Row `1024 t + r`: row `r` of block `t`. -/
abbrev rowOf (t : Fin 128) (r : Fin 1024) : Fin 131072 := ⟨1024 * t.val + r.val, by omega⟩

/-- The rows are the pairs (block, row in the block). -/
def rowEquiv : Fin 128 × Fin 1024 ≃ Fin 131072 where
  toFun p := rowOf p.1 p.2
  invFun i := (⟨i.val / 1024, by omega⟩, ⟨i.val % 1024, by omega⟩)
  left_inv p := by
    obtain ⟨⟨t, ht⟩, ⟨r, hr⟩⟩ := p
    refine Prod.ext (Fin.ext ?_) (Fin.ext ?_)
    · show (1024 * t + r) / 1024 = t; omega
    · show (1024 * t + r) % 1024 = r; omega
  right_inv i := Fin.ext (by show 1024 * (i.val / 1024) + i.val % 1024 = i.val; omega)

/-- So a sum over the rows is the sum over the blocks of the sums over each block's rows. -/
theorem sum_rows (g : Fin 131072 → EReal) : ∑ i : Fin 131072, g i = ∑ t : Fin 128, ∑ r : Fin 1024, g (rowOf t r) := by
  rw [← Equiv.sum_comp rowEquiv g, Fintype.sum_prod_type]
  rfl

/-- Block `n`'s sum as a function of every natural (zero past the last block): the addend of a running sum
    over consecutive blocks. -/
def blockSum (g : Fin 131072 → EReal) (n : ℕ) : EReal :=
  if h : n < 128 then ∑ r : Fin 1024, g (rowOf ⟨n, h⟩ r) else 0

/-- LAW 2. Two running sums from zero, over blocks 0 … 63 and over blocks 64 … 127, added: the sum over all rows. -/
theorem halves_sum (g : Fin 131072 → EReal) :
    ((0 : EReal) + ∑ s ∈ Finset.range 64, blockSum g (0 + s)) + ((0 : EReal) + ∑ s ∈ Finset.range 64, blockSum g (64 + s))
      = ∑ i : Fin 131072, g i := by
  rw [zero_add, zero_add, sum_rows]
  have e : ∑ s ∈ Finset.range 64, blockSum g (0 + s) = ∑ s ∈ Finset.range 64, blockSum g s :=
    Finset.sum_congr rfl fun s _ => by rw [Nat.zero_add]
  rw [e, ← Finset.sum_range_add (blockSum g) 64 64, Finset.sum_range]
  refine Finset.sum_congr rfl fun t _ => ?_
  unfold blockSum
  rw [dif_pos t.isLt]

end Cert.CosineMean

end
-- ==== Proof.BlockLoss.lean ====
/-
  What one grid point's body computes, read at an index over the extended reals.

  The body holds a block `v0` of 1024 rows of the matrix and the block `v1` of their 1024 label words. It forms the
  one-hot mask of each row (column `c` against the row's label), the masked row sum (the picked entry), the row's
  sum of squares, the row's loss, and the sum of the 1024 losses, which it adds to the running value `v25` of the
  one-element scratch. Each of these vectors is named here as the kernel's own operations, and read at an index:
  the lane reductions are plain sums over the reduced axis, the layout casts keep the row-major position.
-/
import proofs.«415397_j71494025609906_3_alg».proof.Proof.Gen.KernelIdeal.Skeleton
import proofs.«415397_j71494025609906_3_alg».proof.Proof.CosineMean
import Idealize.ShloMosaic.Lib.ValueIdx
import Idealize.ShloMosaic.Lib.Pipeline.Value
import Idealize.ShloMosaic.PureOps.Ideal.Laws

noncomputable section

namespace Cert.KernelIdeal.BlockLoss

open Idealize.ShloMosaic Idealize.ShloMosaic.ValueIdx Cert.KernelIdeal Cert.KernelIdeal.Gen Cert.CosineMean

/-! ## Words -/

/-- Column `c` compared for equality with a label word, widened and converted: `1` exactly at the column the word
    names, else `0`. -/
theorem eq_word (c : Nat) (hc : c < 1000) (l : BitVec 32) :
    ((((IntOp.cmpi .eq (BitVec.ofNat 32 c) l).setWidth 32).toInt : ℝ) : EReal) = if c = l.toNat then 1 else 0 := by
  have hc' : c < 2 ^ 32 := Nat.lt_of_lt_of_le hc (by decide)
  by_cases h : c = l.toNat
  · rw [if_pos h]
    have e : BitVec.ofNat 32 c = l :=
      BitVec.eq_of_toNat_eq (by rw [BitVec.toNat_ofNat, h]; exact Nat.mod_eq_of_lt l.isLt)
    have hw : IntOp.cmpi .eq (BitVec.ofNat 32 c) l = 1#1 := by
      show BitVec.ofBool (BitVec.ofNat 32 c == l) = 1#1
      rw [e, beq_self_eq_true]; rfl
    rw [hw]
    have : ((1#1 : BitVec 1).setWidth 32).toInt = 1 := by decide
    rw [this]; simp
  · rw [if_neg h]
    have e : ¬ BitVec.ofNat 32 c = l := fun e => h (by
      rw [← e, BitVec.toNat_ofNat]; exact (Nat.mod_eq_of_lt hc').symm)
    have hw : IntOp.cmpi .eq (BitVec.ofNat 32 c) l = 0#1 := by
      show BitVec.ofBool (BitVec.ofNat 32 c == l) = 0#1
      rw [beq_eq_false_iff_ne.mpr e]; rfl
    rw [hw]
    have : ((0#1 : BitVec 1).setWidth 32).toInt = 0 := by decide
    rw [this]; simp

/-! ## The block's vectors -/

variable (v0 : Vec Ideal S1024x1000 .f32) (v1 : Vec Ideal S1024x1 .i32)

/-- Row `r` of the block, as a function of the column. -/
abbrev blockRow (r : Fin 1024) : Fin 1000 → EReal := fun c => v0 (ix2 r c)

/-- The one-hot mask as floats: the column number against the row's label word, widened and converted. -/
def maskF : FVec Ideal S1024x1000 .f32 :=
  sitofp .f32 (extui 32 (cmpi .eq (iota .tc S1024x1000 32 [1] iota_S1024x1000_d1_w32)
    (broadcastTo S1024x1000 (shapeCast S1024x1 v1 shapeCasts_S1024x1_S1024x1) broadcasts_S1024x1_S1024x1000)) natLt_1_32)

/-- The mask at (r, c) is `1` when `c` is the column row `r`'s label names, else `0`. -/
theorem maskF_apply (r : Fin 1024) (c : Fin 1000) :
    maskF v1 (ix2 r c) = if c.val = (v1 (ix2 r 0)).toNat then 1 else 0 := by
  have hi : iota .tc S1024x1000 32 [1] iota_S1024x1000_d1_w32 (ix2 r c) = BitVec.ofNat 32 c.val :=
    iota_single_apply .tc S1024x1000 32 1 iota_S1024x1000_d1_w32 (ix2 r c)
  have hb : broadcastTo S1024x1000 (shapeCast S1024x1 v1 shapeCasts_S1024x1_S1024x1) broadcasts_S1024x1_S1024x1000 (ix2 r c)
      = v1 (ix2 r 0) := by
    rw [shapeCast_self]
    exact broadcastTo_apply v1 broadcasts_S1024x1_S1024x1000 (ix2 r c) (ix2 r 0) (fun a => match a with
      | ⟨0, _⟩ => by show r.val = if (1024 : Nat) = 1 then 0 else r.val; rw [if_neg (by decide)]
      | ⟨1, _⟩ => by show (0 : Nat) = if (1 : Nat) = 1 then 0 else c.val; rw [if_pos rfl])
  show ((((IntOp.cmpi .eq (iota .tc S1024x1000 32 [1] iota_S1024x1000_d1_w32 (ix2 r c))
    (broadcastTo S1024x1000 (shapeCast S1024x1 v1 shapeCasts_S1024x1_S1024x1) broadcasts_S1024x1_S1024x1000 (ix2 r c))).setWidth 32).toInt : ℝ) : EReal) = _
  rw [hi, hb]
  exact eq_word c.val c.isLt _

/-- A lane sum over the columns of a [1024, 1000] vector, reshaped to a column, read at row `r`: the sum over the
    columns of the vector at (r, c). -/
theorem colsum_apply (w : FVec Ideal S1024x1000 .f32) (hφ : FKind.Formats .f32)
    (hacc : (0x00000000#32 : BitVec FTy.f32.bits) = FKind.add.neutral .f32 hφ) (r : Fin 1024) :
    shapeCast S1024x1 (multiReduction .add [1] S1024 w 0x00000000#32 reduces_S1024x1000_S1024 hφ hacc) shapeCasts_S1024_S1024x1 (ix2 r 0)
      = ∑ c : Fin 1000, w (ix2 r c) := by
  refine (shapeCast_apply _ shapeCasts_S1024_S1024x1 (ix2 r 0) (ix1 r) (by
    rw [Shape.rowMajor_val_one, Shape.rowMajor_val_two]; show r.val = r.val * 1 + 0; omega)).trans ?_
  refine (Ideal.multiReduction_add_single w 0x00000000#32 reduces_S1024x1000_S1024 hφ hacc (ix1 r)).trans ?_
  refine Finset.sum_congr rfl fun c _ => ?_
  exact congrArg w (funext fun a => Fin.ext (by match a with | ⟨0, _⟩ => rfl | ⟨1, _⟩ => rfl))

/-- The masked row sums, as a column. -/
def dotCol : FVec Ideal S1024x1 .f32 :=
  shapeCast S1024x1 (multiReduction .add [1] S1024 (mulf v0 (maskF v1)) 0x00000000#32 reduces_S1024x1000_S1024 (.inl rfl) rfl) shapeCasts_S1024_S1024x1

/-- The rows' sums of squares, as a column. -/
def nsqCol : FVec Ideal S1024x1 .f32 :=
  shapeCast S1024x1 (multiReduction .add [1] S1024 (mulf v0 v0) 0x00000000#32 reduces_S1024x1000_S1024 (.inl rfl) rfl) shapeCasts_S1024_S1024x1

/-- Row `r`'s masked sum is the entry its label picks (law 1). -/
theorem dotCol_apply (r : Fin 1024) : dotCol v0 v1 (ix2 r 0) = pick (blockRow v0 r) (v1 (ix2 r 0)) := by
  unfold dotCol
  refine (colsum_apply (mulf v0 (maskF v1)) (.inl rfl) rfl r).trans ?_
  exact onehot_sum (blockRow v0 r) (v1 (ix2 r 0)) (fun c => maskF v1 (ix2 r c)) (fun c => maskF_apply v1 r c)

theorem nsqCol_apply (r : Fin 1024) : nsqCol v0 (ix2 r 0) = ∑ c : Fin 1000, blockRow v0 r c * blockRow v0 r c := by
  unfold nsqCol
  exact colsum_apply (mulf v0 v0) (.inl rfl) rfl r

/-- The rows' losses, as a column. -/
def lossCol : FVec Ideal S1024x1 .f32 :=
  subf (broadcast S1024x1 (Scalar.ofBits .f32 0x3F800000#32))
    (divf (dotCol v0 v1) (maximumf (sqrt (nsqCol v0)) (broadcast S1024x1 (Scalar.ofBits .f32 0x322BCC77#32))))

theorem lossCol_apply (r : Fin 1024) : lossCol v0 v1 (ix2 r 0) = rowLoss (blockRow v0 r) (v1 (ix2 r 0)) := by
  show oneW - Ideal.div (dotCol v0 v1 (ix2 r 0)) (max (Ideal.sqrt (nsqCol v0 (ix2 r 0))) epsW) = _
  rw [dotCol_apply, nsqCol_apply]
  rfl

/-- The block's 1024 losses summed, as the one-element vector the body adds to the scratch. -/
def blockTotal : FVec Ideal S1x1 .f32 :=
  shapeCast S1x1 (multiReduction .add [0] S1 (lossCol v0 v1) 0x00000000#32 reduces_S1024x1_S1 (.inl rfl) rfl) shapeCasts_S1_S1x1

theorem blockTotal_apply (j : S1x1.Idx) :
    blockTotal v0 v1 j = ∑ r : Fin 1024, rowLoss (blockRow v0 r) (v1 (ix2 r 0)) := by
  unfold blockTotal
  refine (shapeCast_apply _ shapeCasts_S1_S1x1 j (ix1 (0 : Fin 1)) (by
    rw [Shape.rowMajor_val_one, Shape.rowMajor_val_two]
    have h0 : (j 0).val < 1 := (j 0).isLt
    have h1 : (j 1).val < 1 := (j 1).isLt
    show (0 : Nat) = (j 0).val * 1 + (j 1).val; omega)).trans ?_
  refine (Ideal.multiReduction_add_single (lossCol v0 v1) 0x00000000#32 reduces_S1024x1_S1 (.inl rfl) rfl (ix1 (0 : Fin 1))).trans ?_
  refine Finset.sum_congr rfl fun r _ => ?_
  refine Eq.trans (congrArg (lossCol v0 v1) (funext fun a => Fin.ext (by match a with | ⟨0, _⟩ => rfl | ⟨1, _⟩ => rfl))) (lossCol_apply v0 v1 r)

/-! ## The payloads -/

/-- The reset stores the zero word. -/
theorem pay1_apply (j : S1x1.Idx) : k0_pay1 (F := Ideal) j = Ideal.ofBits .f32 0x00000000#32 := by
  unfold k0_pay1
  rw [shapeCast_self]
  rfl

/-- The accumulating store: the running value plus the block's total. -/
theorem pay2_apply (v25 : Vec Ideal S1x1 .f32) (j : S1x1.Idx) :
    k0_pay2 (F := Ideal) v0 v1 v25 j = v25 j + ∑ r : Fin 1024, rowLoss (blockRow v0 r) (v1 (ix2 r 0)) := by
  have e : k0_pay2 (F := Ideal) v0 v1 v25 = addf v25 (blockTotal v0 v1) := by
    unfold k0_pay2
    exact shapeCast_self _ _
  rw [e]
  show v25 j + blockTotal v0 v1 j = _
  rw [blockTotal_apply]

/-- The output block: the scratch's one element at (0, 0), the zero word elsewhere. -/
theorem pay3_apply (v33 : Vec Ideal S1x1 .f32) (a : Fin 8) (b : Fin 128) :
    k0_pay3 (F := Ideal) v33 (ix2 a b)
      = if a.val = 0 ∧ b.val = 0 then v33 (ix2 (0 : Fin 1) (0 : Fin 1)) else Ideal.ofBits .f32 0x00000000#32 := by
  have h0 : iota .tc S8x128 32 [0] iota_S8x128_d0_w32 (ix2 a b) = BitVec.ofNat 32 a.val :=
    iota_single_apply .tc S8x128 32 0 iota_S8x128_d0_w32 (ix2 a b)
  have h1 : iota .tc S8x128 32 [1] iota_S8x128_d1_w32 (ix2 a b) = BitVec.ofNat 32 b.val :=
    iota_single_apply .tc S8x128 32 1 iota_S8x128_d1_w32 (ix2 a b)
  have hx : extractAt ![0, 0] v33 inpos_S1x1_p0_0 = v33 (ix2 (0 : Fin 1) (0 : Fin 1)) :=
    congrArg v33 (funext fun d => Fin.ext (by match d with | ⟨0, _⟩ => rfl | ⟨1, _⟩ => rfl))
  show Scalar.select (IntOp.andi (IntOp.cmpi .eq (iota .tc S8x128 32 [0] iota_S8x128_d0_w32 (ix2 a b)) 0#32)
      (IntOp.cmpi .eq (iota .tc S8x128 32 [1] iota_S8x128_d1_w32 (ix2 a b)) 0#32))
    (extractAt ![0, 0] v33 inpos_S1x1_p0_0) (Scalar.ofBits (F := Ideal) .f32 0x00000000#32) = _
  rw [h0, h1, hx]
  have ha : ∀ (n : Nat), n < 128 → IntOp.cmpi .eq (BitVec.ofNat 32 n) 0#32 = if n = 0 then 1#1 else 0#1 := by
    intro n hn
    by_cases hn0 : n = 0
    · subst hn0; rfl
    · rw [if_neg hn0]
      show BitVec.ofBool (BitVec.ofNat 32 n == 0#32) = 0#1
      have : ¬ BitVec.ofNat 32 n = 0#32 := fun e => hn0 (by
        have := congrArg BitVec.toNat e
        rw [BitVec.toNat_ofNat, Nat.mod_eq_of_lt (Nat.lt_of_lt_of_le hn (by decide))] at this
        exact this)
      rw [beq_eq_false_iff_ne.mpr this]; rfl
  rw [ha a.val (by omega), ha b.val b.isLt]
  by_cases ha0 : a.val = 0 <;> by_cases hb0 : b.val = 0 <;> simp [ha0, hb0, IntOp.andi, Scalar.select] <;> rfl

end Cert.KernelIdeal.BlockLoss

end
-- ==== Proof.CaseValues.lean ====
/-
  What each control case of the body leaves behind, as values.

  The body runs in one of three cases by the position `k` of the grid point in its core's run of 64 points. At the
  run's first point it stores zero into the one-element scratch, reads it back and stores zero plus the block's
  total; at a middle point it stores the carried value plus the block's total; at the last point it does the same and
  then writes the output block from the value just stored. The frame's run found these stores as lists of pieces;
  here each list is read back as the payload it holds: one covering store at offset zero is its payload, a store
  read back after a covering store is that store's payload, and a load of a whole buffer is the buffer's contents.
-/
import proofs.«415397_j71494025609906_3_alg».proof.Proof.Gen.KernelIdeal.Frame
import Idealize.ShloMosaic.Lib.Pipeline.Value
import Idealize.ShloMosaic.Lib.Tactic

noncomputable section

namespace Cert.KernelIdeal.CaseValues

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl

/-- FIRST POINT of a run: the scratch ends at the accumulating payload over the zero it has just been reset to. -/
theorem scratch_first (c : Dev nD) (i : grid0.Coords) (a2 : Memref sig .tc .vmem S1024x1000 .f32) (h2 : a2.IsWhole) (a3 : Memref sig .tc .vmem S1024x1 .i32) (h3 : a3.IsWhole)
    (a4 : Memref sig .tc .vmem S8x128 .f32) (h4 : a4.IsWhole) (a5 : Memref sig .tc .vmem S1x1 .f32) (h5 : a5.IsWhole) (hc0 : cond0_0 i) (hc1 : ¬cond0_1 i)
    (x0 : Vec F S1024x1000 .f32) (x1 : Vec F S1024x1 .i32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) hz, View.readCov_unit_zero (S := S1x1) _ hz]
  simp only [View.readAt_eq_ld, h2.read_unread, h3.read_unread, View.ld_unit_zero (S := S1024x1000) hz,
    View.ld_unit_zero (S := S1024x1) hz]

/-- MIDDLE POINT: the scratch ends at the accumulating payload over what the point before left. -/
theorem scratch_middle (c : Dev nD) (i : grid0.Coords) (a2 : Memref sig .tc .vmem S1024x1000 .f32) (h2 : a2.IsWhole) (a3 : Memref sig .tc .vmem S1024x1 .i32) (h3 : a3.IsWhole)
    (a4 : Memref sig .tc .vmem S8x128 .f32) (h4 : a4.IsWhole) (a5 : Memref sig .tc .vmem S1x1 .f32) (h5 : a5.IsWhole) (hc0 : ¬cond0_0 i) (hc1 : ¬cond0_1 i)
    (x0 : Vec F S1024x1000 .f32) (x1 : Vec F S1024x1 .i32) (xs0 : Vec F S1x1 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz]
  simp only [View.readAt_eq_ld, h2.read_unread, h3.read_unread, h5.read_unread, View.ld_unit_zero (S := S1024x1000) hz,
    View.ld_unit_zero (S := S1024x1) hz, View.ld_unit_zero (S := S1x1) hz]

/-- LAST POINT: the scratch likewise, -/
theorem scratch_last (c : Dev nD) (i : grid0.Coords) (a2 : Memref sig .tc .vmem S1024x1000 .f32) (h2 : a2.IsWhole) (a3 : Memref sig .tc .vmem S1024x1 .i32) (h3 : a3.IsWhole)
    (a4 : Memref sig .tc .vmem S8x128 .f32) (h4 : a4.IsWhole) (a5 : Memref sig .tc .vmem S1x1 .f32) (h5 : a5.IsWhole) (hc0 : ¬cond0_0 i) (hc1 : cond0_1 i)
    (x0 : Vec F S1024x1000 .f32) (x1 : Vec F S1024x1 .i32) (xs0 : Vec F S1x1 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S1024x1000) hz,
    View.ld_unit_zero (S := S1024x1) hz, View.ld_unit_zero (S := S1x1) hz]

/-- and the output block is the output payload of the value just stored into the scratch. -/
theorem block_last (c : Dev nD) (i : grid0.Coords) (a2 : Memref sig .tc .vmem S1024x1000 .f32) (h2 : a2.IsWhole) (a3 : Memref sig .tc .vmem S1024x1 .i32) (h3 : a3.IsWhole)
    (a4 : Memref sig .tc .vmem S8x128 .f32) (h4 : a4.IsWhole) (a5 : Memref sig .tc .vmem S1x1 .f32) (h5 : a5.IsWhole) (hc0 : ¬cond0_0 i) (hc1 : cond0_1 i)
    (x0 : Vec F S1024x1000 .f32) (x1 : Vec F S1024x1 .i32) (xs0 : Vec F S1x1 .f32) :
    out0_C_2 c i a2 h2 a3 h3 a4 h4 a5 h5 hc0 hc1 x0 x1 xs0 = k0_pay3 (k0_pay2 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.readCov_unit_zero (S := S1x1) _ hz,
    View.ld_unit_zero (S := S1024x1000) hz, View.ld_unit_zero (S := S1024x1) hz, View.ld_unit_zero (S := S1x1) hz]

end Cert.KernelIdeal.CaseValues

end
-- ==== Proof.RunningSum.lean ====
/-
  The scratch after every grid point, in closed form.

  The 128 grid points run in order; point `t` works on block `t` of the matrix (rows `1024 t … 1024 t + 1023`). The
  scratch is reset at the points `t ≡ 0 (mod 64)` and accumulated at every other point, so after point `t` it holds
  the fold over the run `64 (t / 64) … t`: the zero word plus the sum of those blocks' totals. The library states the
  fold once (`Pipeline.eq_accAt_of_mod`) and unrolls an additive one to a range sum (`Pipeline.accAt_add_apply`).
-/
import proofs.«415397_j71494025609906_3_alg».proof.Proof.BlockLoss
import proofs.«415397_j71494025609906_3_alg».proof.Proof.CaseValues

noncomputable section

namespace Cert.KernelIdeal.RunningSum

open Idealize.ShloMosaic Idealize.ShloMosaic.TcCoe Idealize.ShloMosaic.ValueIdx Idealize.SL.Sem
open Cert.KernelIdeal Cert.KernelIdeal.Gen Cert.CosineMean Cert.KernelIdeal.BlockLoss Cert.KernelIdeal.CaseValues

variable (m : (ℓ : Loc nD τ sig) → Buf (Elt Ideal) ℓ)

/-- The matrix's block and the labels' block at point `t`, at their literal types. -/
abbrev xblk (c : Dev nD) (t : Fin cfg0.N) : Vec Ideal S1024x1000 .f32 := iblk m c 0 t
abbrev lblk (c : Dev nD) (t : Fin cfg0.N) : Vec Ideal S1024x1 .i32 := iblk m c 1 t

/-- What the scratch holds after position `n`. -/
abbrev scratchAt (c : Dev nD) (n : ℕ) (h : n < cfg0.N) : Vec Ideal S1x1 .f32 := (outsAt0 m c n h).2

/-- At the first point of a run the scratch is reset and then accumulated. -/
theorem scratch_reset (c : Dev nD) (n : ℕ) (h : n < cfg0.N) (h0 : n % 64 = 0) :
    scratchAt m c n h = k0_pay2 (xblk m c ⟨n, h⟩) (lblk m c ⟨n, h⟩) (k0_pay1 (F := Ideal)) := by
  have h1 : ¬ n % 64 = 63 := by omega
  show (outsAt0 m c n h).2 = _
  rw [outsAt0_A m c ⟨n, h⟩ h0 h1]
  dsimp only
  exact scratch_first (F := Ideal) c (grid0.coords ⟨n, h⟩) (ms0_0 ⟨n, h⟩) (hs0_0 ⟨n, h⟩) (ms0_1 ⟨n, h⟩) (hs0_1 ⟨n, h⟩)
    (ms0_2 ⟨n, h⟩) (hs0_2 ⟨n, h⟩) scM0_0 (Memref.isWhole_whole _) ((hcond0_0 ⟨n, h⟩).mpr h0)
    (fun hh => h1 ((hcond0_1 ⟨n, h⟩).mp hh)) (iblk m c 0 ⟨n, h⟩) (iblk m c 1 ⟨n, h⟩)

/-- At every other point it is accumulated over what the point before left. -/
theorem scratch_step (c : Dev nD) (n : ℕ) (h : n + 1 < cfg0.N) (h0 : ¬ (n + 1) % 64 = 0) :
    scratchAt m c (n + 1) h
      = k0_pay2 (xblk m c ⟨n + 1, h⟩) (lblk m c ⟨n + 1, h⟩) (scratchAt m c n (Nat.lt_of_succ_lt h)) := by
  show (outsAt0 m c (n + 1) h).2 = _
  by_cases h1 : (n + 1) % 64 = 63
  · rw [outsAt0_C m c ⟨n + 1, h⟩ h0 h1]
    dsimp only
    exact scratch_last (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) scM0_0 (Memref.isWhole_whole _) (fun hh => h0 ((hcond0_0 ⟨n + 1, h⟩).mp hh))
      ((hcond0_1 ⟨n + 1, h⟩).mpr h1) (iblk m c 0 ⟨n + 1, h⟩) (iblk m c 1 ⟨n + 1, h⟩) (outsAt0 m c n (Nat.lt_of_succ_lt h)).2
  · rw [outsAt0_B m c ⟨n + 1, h⟩ h0 h1]
    dsimp only
    exact scratch_middle (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) scM0_0 (Memref.isWhole_whole _) (fun hh => h0 ((hcond0_0 ⟨n + 1, h⟩).mp hh))
      (fun hh => h1 ((hcond0_1 ⟨n + 1, h⟩).mp hh)) (iblk m c 0 ⟨n + 1, h⟩) (iblk m c 1 ⟨n + 1, h⟩) (outsAt0 m c n (Nat.lt_of_succ_lt h)).2

/-- Block `n`'s total: the sum of its 1024 rows' losses; zero past the grid (the addend of a running sum is asked
    for at every natural). -/
def blockTotalAt (c : Dev nD) (n : ℕ) : EReal :=
  if h : n < cfg0.N then ∑ r : Fin 1024, rowLoss (blockRow (xblk m c ⟨n, h⟩) r) (lblk m c ⟨n, h⟩ (ix2 r 0)) else 0

/-- THE SCRATCH AFTER POINT `t`: the zero word plus the totals of the blocks of `t`'s run up to `t`. -/
theorem scratchAt_eq (c : Dev nD) (t : ℕ) (ht : t < cfg0.N) (j : S1x1.Idx) :
    scratchAt m c t ht j
      = Ideal.ofBits .f32 0x00000000#32 + ∑ s ∈ Finset.range (t % 64 + 1), blockTotalAt m c (64 * (t / 64) + s) := by
  have h' : 64 * (t / 64) + t % 64 < cfg0.N := by rw [Nat.div_add_mod]; exact ht
  have hfold := Pipeline.eq_accAt_of_mod (N := cfg0.N) (fun n h => scratchAt m c n h) 64
    (fun n h => k0_pay2 (xblk m c ⟨n, h⟩) (lblk m c ⟨n, h⟩) (k0_pay1 (F := Ideal)))
    (fun n h acc => k0_pay2 (xblk m c ⟨n, h⟩) (lblk m c ⟨n, h⟩) acc)
    (fun n h h0 => scratch_reset m c n h h0) (fun n h h0 => scratch_step m c n h h0) (by decide) t ht h'
  rw [hfold]
  refine Pipeline.accAt_add_apply (N := cfg0.N) _ _ (fun _ => Ideal.ofBits .f32 0x00000000#32) (fun n _ => blockTotalAt m c n)
    (64 * (t / 64)) (t % 64) ?_ ?_ (t % 64) (Nat.le_refl _) h' j
  · intro h i
    show k0_pay2 (xblk m c ⟨_, h⟩) (lblk m c ⟨_, h⟩) (k0_pay1 (F := Ideal)) i = _
    rw [pay2_apply, pay1_apply]
    unfold blockTotalAt
    rw [dif_pos h]
  · intro n h acc i _ _
    show k0_pay2 (xblk m c ⟨n, h⟩) (lblk m c ⟨n, h⟩) acc i = _
    rw [pay2_apply]
    unfold blockTotalAt
    rw [dif_pos h]

end Cert.KernelIdeal.RunningSum

end
-- ==== Proof.FinalArray.lean ====
/-
  The kernel's output array after the run.

  Point `t`'s input blocks are rows `1024 t … 1024 t + 1023` of the matrix and of the label column (the label column
  is the label vector reshaped), so block `t`'s total is the specification's `blockSum` of the rows' losses. The
  output [16, 128] array is written back at the last point of each core's run, points 63 and 127, as blocks 0 and 1
  of eight rows: core `q`'s block holds its run's total at its corner and the zero word elsewhere. The two blocks
  tile the array, so the array ends at one function of the arguments.
-/
import proofs.«415397_j71494025609906_3_alg».proof.Proof.RunningSum

noncomputable section

namespace Cert.KernelIdeal.FinalArray

open Idealize.ShloMosaic Idealize.ShloMosaic.TcCoe Idealize.ShloMosaic.ValueIdx Idealize.SL.Sem
open Idealize.ShloMosaic.Pipeline (Dat)
open Cert.KernelIdeal Cert.KernelIdeal.Gen Cert.CosineMean Cert.KernelIdeal.BlockLoss Cert.KernelIdeal.CaseValues
  Cert.KernelIdeal.RunningSum

variable (m : (ℓ : Loc nD τ sig) → Buf (Elt Ideal) ℓ)

/-! ## The windows' index maps, decided over the grid -/

/-- Point `t` reads block `t` of both inputs and writes block `t / 64` of the output; no block is cut. -/
theorem idx_facts : ∀ t : Fin cfg0.N,
    win0_0.index t (0 : Fin 2) = t.val ∧ win0_0.index t (1 : Fin 2) = 0 ∧
    win0_1.index t (0 : Fin 2) = t.val ∧ win0_1.index t (1 : Fin 2) = 0 ∧
    win0_2.index t (0 : Fin 2) = t.val / 64 ∧ win0_2.index t (1 : Fin 2) = 0 ∧
    win0_2.xsize (grid0.coords t) (0 : Fin 2) = 8 ∧ win0_2.xsize (grid0.coords t) (1 : Fin 2) = 128 :=
  (by decide +kernel : ∀ t : Fin grid0.N, _)

/-! ## The arguments as rows -/

/-- The matrix and the labels, as functions of the row (and the column). -/
abbrev rows (c : Dev nD) : Fin 131072 → Fin 1000 → EReal := fun i q => m ((c.tc : Thread nD τ).loc main_arg0) (ix2 i q)
abbrev labs (c : Dev nD) : Fin 131072 → BitVec 32 := fun i => m ((c.tc : Thread nD τ).loc main_arg1) (ix1 i)

/-- Every row's loss. -/
abbrev lossOf (c : Dev nD) : Fin 131072 → EReal := fun i => rowLoss (rows m c i) (labs m c i)

/-- Point `t` as a block number. -/
abbrev blockNo (t : Fin cfg0.N) : Fin 128 := ⟨t.val, lt_of_lt_of_eq t.isLt N_0⟩

/-- The matrix's block at point `t` is rows `1024 t + r` of the matrix. -/
theorem xblk_apply (c : Dev nD) (t : Fin cfg0.N) (r : Fin 1024) (q : Fin 1000) :
    xblk m c t (ix2 r q) = rows m c (rowOf (blockNo t) r) q := by
  obtain ⟨h00, h01, -⟩ := idx_facts t
  show iblk m c 0 t (ix2 r q) = _
  unfold iblk
  rw [View.read_apply]
  show V m c main_arg0 _ = m ((c.tc : Thread nD τ).loc main_arg0) _
  rw [V_main_arg0]
  congr 1
  funext a
  apply Fin.ext
  match a with
  | ⟨0, _⟩ => show win0_0.index t 0 * 1024 + 1 * r.val = 1024 * t.val + r.val; rw [h00]; omega
  | ⟨1, _⟩ => show win0_0.index t 1 * 1000 + 1 * q.val = q.val; rw [h01]; omega

/-- The label column the region finds is the label vector reshaped. -/
theorem V_labels (c : Dev nD) :
    (V m c main_v0 : S131072x1.Idx → BitVec 32)
      = shapeCast S131072x1 (m ((c.tc : Thread nD τ).loc main_arg1)) shapeCasts_S131072_S131072x1 := by
  show StableHlo.after hostOps0 (fun b => m (c, b)) (Proc.devRef .tc main_v0) = _
  after_results
  rfl

/-- The labels' block at point `t` is labels `1024 t + r`. -/
theorem lblk_apply (c : Dev nD) (t : Fin cfg0.N) (r : Fin 1024) :
    lblk m c t (ix2 r 0) = labs m c (rowOf (blockNo t) r) := by
  obtain ⟨-, -, h10, h11, -⟩ := idx_facts t
  show iblk m c 1 t (ix2 r 0) = _
  unfold iblk
  rw [View.read_apply]
  show (V m c main_v0 : S131072x1.Idx → BitVec 32) _ = _
  rw [V_labels]
  refine (shapeCast_apply _ shapeCasts_S131072_S131072x1 _ (ix1 (rowOf (blockNo t) r)) ?_).trans rfl
  rw [Shape.rowMajor_val_one, Shape.rowMajor_val_two]
  show 1024 * t.val + r.val = (win0_1.index t 0 * 1024 + 1 * r.val) * 1 + (win0_1.index t 1 * 1 + 1 * 0)
  rw [h10, h11]; omega

/-- So block `n`'s total is the specification's sum of the losses of rows `1024 n … 1024 n + 1023`. -/
theorem blockTotalAt_eq (c : Dev nD) (n : ℕ) : blockTotalAt m c n = blockSum (lossOf m c) n := by
  unfold blockTotalAt blockSum
  by_cases h : n < 128
  · rw [dif_pos (lt_of_lt_of_eq h N_0.symm), dif_pos h]
    refine Finset.sum_congr rfl fun r _ => ?_
    have e1 : blockRow (xblk m c ⟨n, lt_of_lt_of_eq h N_0.symm⟩) r = rows m c (rowOf ⟨n, h⟩ r) :=
      funext fun q => xblk_apply m c ⟨n, lt_of_lt_of_eq h N_0.symm⟩ r q
    rw [e1, lblk_apply m c ⟨n, lt_of_lt_of_eq h N_0.symm⟩ r]
  · rw [dif_neg (fun h' => h (lt_of_lt_of_eq h' N_0)), dif_neg h]

/-! ## The output array -/

/-- Core `q`'s total: the zero word plus the totals of its 64 blocks. -/
def coreSum (c : Dev nD) (q : ℕ) : EReal :=
  Ideal.ofBits .f32 0x00000000#32 + ∑ s ∈ Finset.range 64, blockTotalAt m c (64 * q + s)

/-- The output array after the run: core `q`'s total at (8 q, 0), the zero word elsewhere. -/
def outArr (c : Dev nD) : Buf (Elt Ideal) ((c.tc : Thread nD τ).loc main_v1) := fun (i : S16x128.Idx) =>
  if (i 0).val % 8 = 0 ∧ (i 1).val = 0 then coreSum m c ((i 0).val / 8) else Ideal.ofBits .f32 0x00000000#32

/-- At the last point of a run the output block is the output payload of the scratch as that point leaves it. -/
theorem outBlock_eq (c : Dev nD) (t : Fin cfg0.N) (h0 : ¬ t.val % 64 = 0) (h1 : t.val % 64 = 63) :
    (outsAt0 m c t.val t.isLt).1 = k0_pay3 (scratchAt m c t.val t.isLt) := by
  show _ = k0_pay3 (outsAt0 m c t.val t.isLt).2
  rw [outsAt0_C m c t h0 h1]
  dsimp only
  refine (block_last (F := Ideal) c (grid0.coords t) (ms0_0 t) (hs0_0 t) (ms0_1 t) (hs0_1 t) (ms0_2 t) (hs0_2 t) scM0_0
    (Memref.isWhole_whole _) (fun hh => h0 ((hcond0_0 t).mp hh)) ((hcond0_1 t).mpr h1) (iblk m c 0 t) (iblk m c 1 t)
    (outsAt0 m c (t.val - 1) (Nat.lt_of_le_of_lt (Nat.sub_le _ _) t.isLt)).2).trans ?_
  exact congrArg k0_pay3 (scratch_last (F := Ideal) c (grid0.coords t) (ms0_0 t) (hs0_0 t) (ms0_1 t) (hs0_1 t) (ms0_2 t) (hs0_2 t) scM0_0
    (Memref.isWhole_whole _) (fun hh => h0 ((hcond0_0 t).mp hh)) ((hcond0_1 t).mpr h1) (iblk m c 0 t) (iblk m c 1 t)
    (outsAt0 m c (t.val - 1) (Nat.lt_of_le_of_lt (Nat.sub_le _ _) t.isLt)).2).symm

/-- What a flushing point writes back is its block of the output array. -/
theorem flushed_eq (c : Dev nD) (t : Fin cfg0.N) (hf : (cfg0.win 2).flush t = true) :
    (dats m 0 c).flushed 2 t = ((cfg0.win 2).blk t).view.read (Elt Ideal) (outArr m c) := by
  have h63 : t.val % 64 = 63 := (flush0_2 t).mp hf
  have hN : t.val < 128 := lt_of_lt_of_eq t.isLt N_0
  have h0 : ¬ t.val % 64 = 0 := by omega
  obtain ⟨-, -, -, -, hi0, hi1, hx0, hx1⟩ := idx_facts t
  funext y
  rw [View.read_apply]
  have hy0 : (y 0).val < 8 := lt_of_lt_of_eq (y 0).isLt hx0
  have hy1 : (y 1).val < 128 := lt_of_lt_of_eq (y 1).isLt hx1
  have hL : (dats m 0 c).flushed 2 t y
      = k0_pay3 (scratchAt m c t.val t.isLt) (ix2 (⟨(y 0).val, hy0⟩ : Fin 8) (⟨(y 1).val, hy1⟩ : Fin 128)) := by
    show (dats m 0 c).after 2 t ((cfg0.win 2).xinj (grid0.coords t) y) = _
    rw [after0_2, outBlock_eq m c t h0 h63]
    exact congrArg _ (funext fun a => Fin.ext (by match a with | ⟨0, _⟩ => rfl | ⟨1, _⟩ => rfl))
  rw [hL, pay3_apply, scratchAt_eq]
  show _ = outArr m c (((cfg0.win 2).blk t).view.emb y)
  unfold outArr
  show _ = if (win0_2.index t 0 * 8 + 1 * (y 0).val) % 8 = 0 ∧ win0_2.index t 1 * 128 + 1 * (y 1).val = 0
    then coreSum m c ((win0_2.index t 0 * 8 + 1 * (y 0).val) / 8) else Ideal.ofBits .f32 0x00000000#32
  rw [hi0, hi1]
  by_cases hc : (y 0).val = 0 ∧ (y 1).val = 0
  · have e1 : t.val % 64 + 1 = 64 := by omega
    have e2 : (t.val / 64 * 8 + 1 * (y 0).val) / 8 = t.val / 64 := by omega
    rw [if_pos hc, if_pos ⟨by omega, by omega⟩, e1, e2]
    rfl
  · rw [if_neg hc, if_neg (fun h => hc ⟨by omega, by omega⟩)]

/-- Every index of the output array lies in the block written back at the last point of its core's run. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have hi0 : (i 0).val < 16 := (i 0).isLt
  have hi1 : (i 1).val < 128 := (i 1).isLt
  have hlt : 64 * ((i 0).val / 8) + 63 < cfg0.N := lt_of_lt_of_eq (by omega) N_0.symm
  refine ⟨⟨64 * ((i 0).val / 8) + 63, hlt⟩, (flush0_2 _).mpr (by show (64 * ((i 0).val / 8) + 63) % 64 = 63; omega), ?_⟩
  obtain ⟨-, -, -, -, h0, h1, hx0, hx1⟩ := idx_facts ⟨64 * ((i 0).val / 8) + 63, hlt⟩
  show i ∈ ((View.whole main_v1).slice (win0_2.rect ⟨64 * ((i 0).val / 8) + 63, hlt⟩)).set
  rw [View.set_slice_whole, Rect.mem_set_unit]
  intro a
  match a with
  | ⟨0, _⟩ =>
    show win0_2.index ⟨64 * ((i 0).val / 8) + 63, hlt⟩ 0 * win0_2.size 0 ≤ (i 0 : Nat)
      ∧ (i 0 : Nat) < win0_2.index ⟨64 * ((i 0).val / 8) + 63, hlt⟩ 0 * win0_2.size 0 + win0_2.xsize (grid0.coords ⟨64 * ((i 0).val / 8) + 63, hlt⟩) 0
    rw [h0, hx0]
    show (64 * ((i 0).val / 8) + 63) / 64 * 8 ≤ (i 0 : Nat) ∧ (i 0 : Nat) < (64 * ((i 0).val / 8) + 63) / 64 * 8 + 8
    omega
  | ⟨1, _⟩ =>
    show win0_2.index ⟨64 * ((i 0).val / 8) + 63, hlt⟩ 1 * win0_2.size 1 ≤ (i 1 : Nat)
      ∧ (i 1 : Nat) < win0_2.index ⟨64 * ((i 0).val / 8) + 63, hlt⟩ 1 * win0_2.size 1 + win0_2.xsize (grid0.coords ⟨64 * ((i 0).val / 8) + 63, hlt⟩) 1
    rw [h1, hx1]
    show 0 * 128 ≤ (i 1 : Nat) ∧ (i 1 : Nat) < 0 * 128 + 128
    omega

/-- THE OUTPUT ARRAY AFTER THE RUN. -/
theorem final (c : Dev nD) : (dats m 0 c).arrAt 2 cfg0.N = outArr m c :=
  (dats m 0 c).arrAt_eq_of_cover 2 (outArr m c) (flushed_eq m c) (cover c)

end Cert.KernelIdeal.FinalArray

end
-- ==== Proof.KernelValue.lean ====
/-
  The kernel's result.

  After the region the host reads the output array at (0, 0) and at (8, 0) — the two cores' totals —, adds them and
  divides by the row count. The two totals are running sums from zero over blocks 0 … 63 and 64 … 127, so by law 2
  their sum is the sum of all rows' losses, and the result is the specification's mean of the arguments.
-/
import proofs.«415397_j71494025609906_3_alg».proof.Proof.FinalArray
import Idealize.ShloMosaic.Lib.StableHlo.Run
import Idealize.ShloMosaic.Lib.Pipeline.FrameSuffix

noncomputable section

namespace Cert.KernelIdeal.KernelValue

open Idealize.ShloMosaic Idealize.ShloMosaic.TcCoe Idealize.ShloMosaic.ValueIdx Idealize.SL.Sem
open Idealize.ShloMosaic.Pipeline (Dat)
open Cert.KernelIdeal Cert.KernelIdeal.Gen Cert.CosineMean Cert.KernelIdeal.RunningSum Cert.KernelIdeal.FinalArray

variable (m : (ℓ : Loc nD τ sig) → Buf (Elt Ideal) ℓ) (ρ : Dev nD → PrngReg)

/-- The output array after the run, at its literal type. -/
abbrev outA (c : Dev nD) : S16x128.Idx → EReal := outArr m c

/-- The host tail reads the two cores' totals, adds them and divides by the row count. -/
theorem tail_eq (c : Dev nD) :
    Pipeline.afterTail₀ cfgs (dats m) 0 (V0 m) [hostOps1] c main_v7
      = fun _ => Ideal.div (coreSum m c 0 + coreSum m c 1) cntW := by
  unfold Pipeline.afterTail₀
  show StableHlo.after hostOps1 _ (Proc.devRef .tc main_v7) = _
  after_results
  have hW : Pipeline.withArrays (cfgs 0).spec c (V0 m c) (fun w => (dats m 0 c).arrAt w (cfgs 0).N) (Proc.devRef .tc main_v1)
      = outArr m c :=
    (Pipeline.withArrays_arr spec0 launch0.win.arr_inj c (V0 m c) (fun w => (dats m 0 c).arrAt w cfg0.N) 2).trans (final m c)
  rw [hW]
  funext j
  show Ideal.div
    (shapeCast S_ (extractStridedSlice S1x1 ![0, 0] (outA m c) slices_S16x128_S1x1_0_0) shapeCasts_S1x1_S_ j
      + shapeCast S_ (extractStridedSlice S1x1 ![8, 0] (outA m c) slices_S16x128_S1x1_8_0) shapeCasts_S1x1_S_ j)
    (Ideal.ofBits .f32 0x48000000#32) = _
  have hk : (S1x1.rowMajor (ix2 (0 : Fin 1) (0 : Fin 1))).val = (S_.rowMajor j).val := by
    have h1 : (S1x1.rowMajor (ix2 (0 : Fin 1) (0 : Fin 1))).val < 1 := (S1x1.rowMajor _).isLt
    have h2 : (S_.rowMajor j).val < 1 := (S_.rowMajor j).isLt
    omega
  rw [shapeCast_apply _ shapeCasts_S1x1_S_ j (ix2 (0 : Fin 1) (0 : Fin 1)) hk,
    shapeCast_apply _ shapeCasts_S1x1_S_ j (ix2 (0 : Fin 1) (0 : Fin 1)) hk,
    extractStridedSlice_apply ![0, 0] (outA m c) slices_S16x128_S1x1_0_0 (ix2 (0 : Fin 1) (0 : Fin 1)) (ix2 (0 : Fin 16) (0 : Fin 128))
      (fun a => by match a with | ⟨0, _⟩ => rfl | ⟨1, _⟩ => rfl),
    extractStridedSlice_apply ![8, 0] (outA m c) slices_S16x128_S1x1_8_0 (ix2 (0 : Fin 1) (0 : Fin 1)) (ix2 (8 : Fin 16) (0 : Fin 128))
      (fun a => by match a with | ⟨0, _⟩ => rfl | ⟨1, _⟩ => rfl)]
  have e0 : outA m c (ix2 (0 : Fin 16) (0 : Fin 128)) = coreSum m c 0 := by
    show outArr m c (ix2 (0 : Fin 16) (0 : Fin 128)) = _
    unfold outArr; exact if_pos ⟨rfl, rfl⟩
  have e8 : outA m c (ix2 (8 : Fin 16) (0 : Fin 128)) = coreSum m c 1 := by
    show outArr m c (ix2 (8 : Fin 16) (0 : Fin 128)) = _
    unfold outArr; exact if_pos ⟨rfl, rfl⟩
  rw [e0, e8]

/-- The two cores' totals add up to the sum of all rows' losses (law 2). -/
theorem cores_sum (c : Dev nD) : coreSum m c 0 + coreSum m c 1 = ∑ i : Fin 131072, lossOf m c i := by
  rw [← halves_sum (lossOf m c)]
  unfold coreSum
  rw [Ideal.ofBits_zero_f32]
  have e0 : ∀ s, blockTotalAt m c (64 * 0 + s) = blockSum (lossOf m c) (0 + s) := fun s => by
    rw [blockTotalAt_eq, Nat.mul_zero]
  have e1 : ∀ s, blockTotalAt m c (64 * 1 + s) = blockSum (lossOf m c) (64 + s) := fun s => by
    rw [blockTotalAt_eq]
  rw [Finset.sum_congr rfl fun s _ => e0 s, Finset.sum_congr rfl fun s _ => e1 s]

/-- THE KERNEL'S RESULT is the specification's mean of the arguments. -/
theorem result_eq (c : Dev nD) :
    Pipeline.afterTail₀ cfgs (dats m) 0 (V0 m) [hostOps1] c main_v7 = fun _ => mean (rows m c) (labs m c) := by
  rw [tail_eq, cores_sum]
  rfl

/-- The kernel's run, read: its result at the mean, its arguments unchanged. -/
theorem run : θ_run defs (onTc (τ := τ) (main (F := Ideal))) ⟨m, fun _ => 0, ρ⟩ fun r => ∀ c : Dev nD,
      r.2.mem ((c.tc : Thread nD τ).loc main_v7) = (fun _ => mean (rows m c) (labs m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v7 (Pipeline.mem_restRefs_of main_v7 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KernelValue

end
-- ==== Proof.LibReduceAndOne.lean ====
/-
  A `stablehlo.reduce` by `and`, read forwards.

  The library reads a reduce by `and` that came out 1 backwards (Lib/ReduceAll.lean: every element that reduces
  into the result was 1). This is the converse: from the initial value 1, the reduce is 1 at every result index
  all of whose contributing elements are 1 — what a proof needs when an operation guards a read with an
  in-bounds test that holds (jnp's `take_along_axis` selects its gathered value under such a test).
-/
import Idealize.ShloMosaic.PureOps.Reduce
import Idealize.ShloMosaic.PureOps.Contract

namespace Idealize.ShloMosaic

namespace IntOp

/-- A left fold by `and` from 1 over `i1` words that are all 1 is 1. -/
theorem foldl_andi_one {ι : Type} (f : ι → BitVec 1) :
    ∀ (l : List ι), (∀ n ∈ l, f n = 1#1) → l.foldl (fun r n => andi r (f n)) 1#1 = 1#1
  | [], _ => rfl
  | a :: l, h => by
    rw [List.foldl_cons, h a (List.mem_cons_self ..)]
    show l.foldl (fun r n => andi r (f n)) (andi 1#1 1#1) = 1#1
    exact foldl_andi_one f l fun n hn => h n (List.mem_cons_of_mem _ hn)

end IntOp

namespace Host

variable {s t u : Shape} {axes : List (Fin s.rank)}

/-- A `stablehlo.reduce` by `and` from the initial value 1 is 1 at `j` when every operand element that reduces
    into `j` is 1. -/
theorem reduce_andi_one (x : s.Idx → BitVec 1) (init : u.Idx → BitVec 1) (h : s.ReducesTo axes t) (hu : 0 < u.numel)
    (j : t.Idx) (hinit : init (Shape.Idx.first hu) = 1#1) (hx : ∀ i : s.Idx, h.drop i = j → x i = 1#1) :
    Host.reduce IntOp.andi x init h hu j = 1#1 := by
  unfold Host.reduce
  rw [hinit]
  refine IntOp.foldl_andi_one (fun n => x (s.rowMajor.symm n)) _ fun n hn => hx _ ?_
  have := (List.mem_filter.mp hn).2
  simpa using this

end Host

end Idealize.ShloMosaic
-- ==== Proof.LibTakeAlongAxis.lean ====
/-
  A batched `stablehlo.gather` along the last axis of a matrix, read at an index.

  What `jnp.take_along_axis(x, idx[:, None], axis=1)` of a matrix `x : [N, C]` lowers to: `lax.gather` with no offset
  axes, collapsed_slice_dims `[1]`, operand_batching_dims `[0]` paired with start_indices_batching_dims `[0]`,
  start_index_map `[1]`, slice_sizes `[1, 1]` and index_vector_dim 2 over the indices as `[N, 1, 1]`; the result is
  `[N, 1]`. Result element `(p, 0)` is row `p` of `x` at the start index `idx[p, 0, 0]` read as a signed integer and
  clamped into `[0, C − 1]`, as StableHLO's gather clamps every start index (PureOps/ShapeOps.lean `Host.gather`):
  the batching axis carries the row, the start index the column.
-/
import Idealize.ShloMosaic.Lib.ValueIdx

noncomputable section

namespace Idealize.ShloMosaic.ValueIdx

open Idealize.ShloMosaic

section AlongLast
variable {α : Type}

/-- Those dimension numbers for an operand `[N, C]`, start indices `[N, 1, 1]` and result `[N, 1]`; their conditions
    `wf` are decided on a program's literal shapes. -/
abbrev alongDims (N C : Nat)
    (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- THE GATHER READ AT `(p, 0)`: row `p` of the operand at the start index `idx[p, 0, 0]`, read signed and clamped
    into `[0, C − 1]`. -/
theorem gather_along_apply {N C w : Nat} (hC : 0 < C)
    (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ w) (p : Fin N) :
    Host.gather (alongDims N C wf) x idx (ix2 p (0 : Fin 1))
      = x (ix2 p ⟨min (idx (ix3 p (0 : Fin 1) (0 : Fin 1))).toInt.toNat (C - 1), by omega⟩) := by
  unfold Host.gather
  congr 1
  funext a
  refine Fin.ext ?_
  show (alongDims N C wf).start (ix2 p (0 : Fin 1)) idx a + (alongDims N C wf).batchCoord (ix2 p (0 : Fin 1)) a
    + (alongDims N C wf).offCoord (ix2 p (0 : Fin 1)) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, by decide⟩ : Fin 2) ∈ (alongDims N C wf).operandBatchingDims from List.mem_singleton.mpr rfl)]
    rfl
  | ⟨1, _⟩ =>
    rw [GatherDims.batchCoord_eq_zero _ _ _ (fun h => by simpa using h),
      GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 2) ∈ (alongDims N C wf).startIndexMap from List.mem_singleton.mpr rfl)]
    have hsi : (alongDims N C wf).siIdx (ix2 p (0 : Fin 1)) ⟨List.idxOf (⟨1, by decide⟩ : Fin 2) (alongDims N C wf).startIndexMap,
        List.idxOf_lt_length_iff.2 (List.mem_singleton.mpr rfl)⟩ = ix3 p (0 : Fin 1) (0 : Fin 1) := by
      funext b; refine Fin.ext ?_
      match b with
      | ⟨0, _⟩ => rfl
      | ⟨1, _⟩ => rfl
      | ⟨2, _⟩ => rfl
    rw [hsi]
    rfl

end AlongLast

end Idealize.ShloMosaic.ValueIdx
-- ==== Proof.RefRows.lean ====
/-
  The reference, row by row, and the label range out of the precondition.

  The reference picks `x[i, lᵢ]` with jnp's `take_along_axis`: a negative label is first wrapped by the row
  length, the wrapped label is tested against `[0, 999]`, the entry is gathered at the label clamped into that
  range, and the entry is kept where the test holds. When every label lies in `[0, 1000)` — the precondition's
  conjunct, decoded here (`labels_of_pre`) — nothing is wrapped, the test holds and the clamp is the identity, so
  the picked entry is the specification's `pick`. The rest of the reference is the specification word for word:
  the host's sums are the initial zero plus the sum, its square root, maximum, quotient and difference are the
  extended reals' own.
-/
import proofs.«415397_j71494025609906_3_alg».proof.Proof.RefRead
import proofs.«415397_j71494025609906_3_alg».proof.Proof.CosineMean
import proofs.«415397_j71494025609906_3_alg».proof.Proof.LibReduceAndOne
import proofs.«415397_j71494025609906_3_alg».proof.Proof.LibTakeAlongAxis
import proofs.«415397_j71494025609906_3_alg».proof.Proof.Gen.Pre_finite_inputs
import Idealize.ShloMosaic.Lib.ValueIdx
import Idealize.ShloMosaic.Lib.ValueIdxRank1
import Idealize.ShloMosaic.Lib.StableHlo.Predicate
import Idealize.ShloMosaic.Lib.ReduceAll

noncomputable section

namespace Cert.ReferenceIdeal.RefRows

open Idealize.ShloMosaic Idealize.ShloMosaic.ValueIdx Idealize.ShloMosaic.StableHlo.Predicate
open Cert.ReferenceIdeal Cert.ReferenceIdeal.Gen Cert.ReferenceIdeal.ReadP Cert.CosineMean

/-! ## Words -/

/-- A word whose signed value is at least zero is below 2³¹ as a natural. -/
theorem toNat_lt_of_sge_zero (l : BitVec 32) (h : IntOp.cmpi .sge l 0#32 = 1#1) : l.toNat < 2 ^ 31 := by
  have h' : (0#32 : BitVec 32).sle l = true := (ofBool_eq_one_iff _).mp h
  have h'' : (0 : Int) ≤ l.toInt := by simpa [BitVec.sle] using h'
  rw [BitVec.toInt_eq_toNat_cond] at h''
  have := l.isLt
  split at h'' <;> omega

/-- So a word in the signed range `[0, 1000)` is below 1000 as a natural. -/
theorem toNat_lt_of_range (l : BitVec 32) (h0 : IntOp.cmpi .sge l 0#32 = 1#1) (h1 : IntOp.cmpi .slt l 1000#32 = 1#1) :
    l.toNat < 1000 := by
  have hl := toNat_lt_of_sge_zero l h0
  have := (slt_iff_toNat hl (by decide)).mp h1
  simpa using this

/-! ## The label range, out of the precondition -/

instance : Subsingleton Cert.Pre_finite_inputs.S_.Idx := ⟨fun a b => funext fun d => d.elim0⟩

/-- The precondition's second conjunct: every label word is below 1000 as a natural (and non-negative as a signed
    integer, which is how it is below 2³¹). -/
theorem labels_of_pre (x0 : FVec Ideal Cert.Pre_finite_inputs.S131072x1000 .f32) (x1 : IVec Cert.Pre_finite_inputs.S131072 32)
    (h : Cert.Pre_finite_inputs.fn (F := Ideal) x0 x1 = fun _ => 1#1) (i : Fin 131072) : (x1 (ix1 i)).toNat < 1000 := by
  have h1 := congrFun h ix0
  dsimp only [Cert.Pre_finite_inputs.fn] at h1
  have h2 := (IntOp.andi_eq_one.mp h1).2
  have h3 := Host.reduce_andi_all _ _ _ _ _ h2 (ix1 i)
  obtain ⟨hge, hlt⟩ := IntOp.andi_eq_one.mp h3
  exact toNat_lt_of_range _ hge hlt

/-! ## The reference's stages at a row -/

variable (x0 : (⟨S131072x1000, .f32⟩ : BufTy).Contents (Elt Ideal)) (x1 : (⟨S131072, .i32⟩ : BufTy).Contents (Elt Ideal))

/-- The matrix and the labels, as functions of the row (and the column). -/
abbrev rows : Fin 131072 → Fin 1000 → EReal := fun i q => x0 (ix2 i q)
abbrev labs : Fin 131072 → BitVec 32 := fun i => x1 (ix1 i)

/-- The label column is the label vector. -/
theorem col_apply (i : Fin 131072) : val_main_v0 (F := Ideal) x1 (ix2 i (0 : Fin 1)) = x1 (ix1 i) := by
  rw [val_main_v0_apply]
  exact congrArg x1 (funext fun a => Fin.ext (by match a with | ⟨0, _⟩ => rfl))

/-- A label in range is not wrapped. -/
theorem wrapped_apply (i : Fin 131072) (hl : (x1 (ix1 i)).toNat < 1000) :
    val_main_call0_v4 (F := Ideal) x1 (ix2 i (0 : Fin 1)) = x1 (ix1 i) := by
  rw [val_main_call0_v4_apply, val_main_call0_v1_apply, col_apply, val_main_call0_v0_apply, val_main_call0_c_apply]
  have hneg : IntOp.cmpi .slt (x1 (ix1 i)) 0#32 = 0#1 := by
    refine eq_zero_of_ne_one fun h => ?_
    have := (slt_iff_toNat (Nat.lt_of_lt_of_le hl (by decide)) (by decide)).mp h
    simp at this
  rw [hneg]
  exact select_zero _ _

/-- The wrapped label as the gather's start index. -/
theorem start_apply (i : Fin 131072) (hl : (x1 (ix1 i)).toNat < 1000) (b c : Fin 1) :
    val_main_call0_v5 (F := Ideal) x1 (ix3 i b c) = x1 (ix1 i) := by
  rw [val_main_call0_v5_apply]
  refine Eq.trans (congrArg (val_main_call0_v4 (F := Ideal) x1) (funext fun a => Fin.ext ?_)) (wrapped_apply x1 i hl)
  match a with
  | ⟨0, _⟩ => show ((i.val * 1 + b.val) * 1 + c.val) / 1 = i.val; have := b.isLt; have := c.isLt; omega
  | ⟨1, _⟩ => rfl

/-- The in-bounds test holds of a label in range. -/
theorem inbounds_apply (i : Fin 131072) (hl : (x1 (ix1 i)).toNat < 1000) :
    val_main_call0_v12 (F := Ideal) x1 (ix2 i (0 : Fin 1)) = 1#1 := by
  unfold val_main_call0_v12
  refine Host.reduce_andi_one _ _ _ _ _ rfl fun i3 hi3 => ?_
  have e : i3 = ix3 i (0 : Fin 1) (0 : Fin 1) := by
    have h0 : (i3 0).val = i.val := congrArg (fun j : S131072x1.Idx => (j 0).val) hi3
    funext a; refine Fin.ext ?_
    match a with
    | ⟨0, _⟩ => exact h0
    | ⟨1, _⟩ => have h1 : (i3 1).val < 1 := (i3 1).isLt; show (i3 1).val = 0; omega
    | ⟨2, _⟩ => have h2 : (i3 2).val < 1 := (i3 2).isLt; show (i3 2).val = 0; omega
  subst e
  have hl' : (x1 (ix1 i)).toNat < 2 ^ 31 := Nat.lt_of_lt_of_le hl (by decide)
  rw [val_main_call0_v11_apply, val_main_call0_v7_apply, val_main_call0_v10_apply, start_apply x1 i hl,
    val_main_call0_v6_apply, val_main_call0_c_2_apply, val_main_call0_v9_apply, val_main_call0_v8_apply, val_main_call0_c_1_apply]
  have hge : IntOp.cmpi .sge (x1 (ix1 i)) 0#32 = 1#1 := (sge_iff_toNat hl' (by decide)).mpr (Nat.zero_le _)
  have hle : IntOp.cmpi .sle (x1 (ix1 i)) 999#32 = 1#1 := (sle_iff_toNat hl' (by decide)).mpr (by
    show (x1 (ix1 i)).toNat ≤ 999; omega)
  rw [hge, hle]
  rfl

/-- The gather reads the row at its label. -/
theorem gathered_apply (i : Fin 131072) (hl : (x1 (ix1 i)).toNat < 1000) :
    val_main_call0_v13 (F := Ideal) x0 x1 (ix2 i (0 : Fin 1)) = rows x0 i ⟨(x1 (ix1 i)).toNat, hl⟩ := by
  unfold val_main_call0_v13
  show Host.gather (alongDims 131072 1000 gather_S131072x1000_S131072x1x1_S131072x1_n_1_0_0_1_2_11_wf) x0
    (val_main_call0_v5 (F := Ideal) x1) (ix2 i (0 : Fin 1)) = _
  refine (gather_along_apply (by decide) _ x0 (val_main_call0_v5 (F := Ideal) x1) i).trans ?_
  have hl' : (x1 (ix1 i)).toNat < 2 ^ 31 := Nat.lt_of_lt_of_le hl (by decide)
  refine congrArg x0 (funext fun a => Fin.ext ?_)
  match a with
  | ⟨0, _⟩ => rfl
  | ⟨1, _⟩ =>
    show min (val_main_call0_v5 (F := Ideal) x1 (ix3 i (0 : Fin 1) (0 : Fin 1))).toInt.toNat (1000 - 1) = (x1 (ix1 i)).toNat
    rw [start_apply x1 i hl, toInt_eq_toNat_of_lt hl', Int.toNat_natCast]
    omega

/-- So the reference's picked entry is the specification's. -/
theorem picked_apply (i : Fin 131072) (hl : (x1 (ix1 i)).toNat < 1000) :
    val_main_v2 (F := Ideal) x0 x1 (ix1 i) = pick (rows x0 i) (labs x1 i) := by
  rw [val_main_v2_apply]
  have e : idx_main_v2 (ix1 i) = ix2 i (0 : Fin 1) := funext fun a => Fin.ext (by
    match a with
    | ⟨0, _⟩ => show i.val / 1 = i.val; omega
    | ⟨1, _⟩ => rfl)
  rw [e, val_main_v1_apply, inbounds_apply x1 i hl, gathered_apply x0 x1 i hl]
  unfold pick
  rw [dif_pos hl]
  exact select_one _ _

/-- The reference's loss of row `i` is the specification's. -/
theorem loss_apply (i : Fin 131072) (hl : (x1 (ix1 i)).toNat < 1000) :
    val_main_v10 (F := Ideal) x0 x1 (ix1 i) = rowLoss (rows x0 i) (labs x1 i) := by
  rw [val_main_v10_apply, val_main_v9_apply, val_main_cst_1_apply, val_main_v8_apply, picked_apply x0 x1 i hl,
    val_main_v7_apply, val_main_v5_apply, val_main_v4_apply, val_main_cst_apply, val_main_v6_apply, val_main_cst_0_apply]
  have es : ∑ k : Fin 1000, val_main_v3 (F := Ideal) x0 (idx_main_v4 (ix1 i) k) = ∑ q : Fin 1000, rows x0 i q * rows x0 i q :=
    Finset.sum_congr rfl fun k _ => by
      rw [val_main_v3_apply]
      have : idx_main_v4 (ix1 i) k = ix2 i k := funext fun a => Fin.ext (by match a with | ⟨0, _⟩ => rfl | ⟨1, _⟩ => rfl)
      rw [this]; rfl
  rw [es]
  show Ideal.ofBits .f32 0x3F800000#32 - Ideal.div (pick (rows x0 i) (labs x1 i))
    (max (Ideal.sqrt (Ideal.ofBits .f32 0x00000000#32 + ∑ q : Fin 1000, rows x0 i q * rows x0 i q)) (Ideal.ofBits .f32 0x322BCC77#32)) = _
  rw [Ideal.ofBits_zero_f32, zero_add]
  rfl

/-- THE REFERENCE'S RESULT is the specification's mean, when every label is in range. -/
theorem ref_eq (hl : ∀ i : Fin 131072, (x1 (ix1 i)).toNat < 1000) :
    val_main_v12 (F := Ideal) x0 x1 = fun _ => mean (rows x0) (labs x1) := by
  funext j
  rw [val_main_v12_apply, val_main_v11_apply, val_main_cst_2_apply, val_main_cst_3_apply]
  have es : ∑ k : S131072.Idx, val_main_v10 (F := Ideal) x0 x1 k = ∑ i : Fin 131072, rowLoss (rows x0 i) (labs x1 i) := by
    rw [← Equiv.sum_comp (idxEquiv1 (n := 131072)).symm]
    exact Finset.sum_congr rfl fun i _ => loss_apply x0 x1 i (hl i)
  rw [es]
  show Ideal.div (Ideal.ofBits .f32 0x00000000#32 + ∑ i : Fin 131072, rowLoss (rows x0 i) (labs x1 i)) (Ideal.ofBits .f32 0x48000000#32) = _
  rw [Ideal.ofBits_zero_f32, zero_add]
  rfl

end Cert.ReferenceIdeal.RefRows

end
-- ==== Proof.lean ====
/-
  The cosine loss against one-hot labels, a two-core Pallas kernel against its jnp reference, over the extended reals.

  Both programs compute, for a matrix `x` of 131072 rows and 1000 columns and a label per row,
  `(Σᵢ (1 - x[i, lᵢ] / max (√(Σ_c x[i, c]²)) ε)) / 131072` (Proof/CosineMean.lean `mean`), with the same three constant
  words. The kernel picks `x[i, lᵢ]` as the row summed against the one-hot mask of its label, sums the losses of
  1024 rows per grid point into a one-element scratch carried over 64 points per core, writes each core's total into
  its own block of a [16, 128] array, and the host adds the two totals and divides. The reference gathers
  `x[i, lᵢ]` with jnp's `take_along_axis` and takes the mean. The two arrangements of the sum agree because sums of
  extended reals commute and associate (law 2), and the two ways of picking the entry agree where every label lies in
  `[0, 1000)` (law 1 on the kernel's side; on the reference's side no wrap of a negative label, a true in-bounds
  test and an identity clamp). That range is the precondition's second conjunct; its first, the finiteness of `x`,
  is not used: no step of the argument cancels or distributes.

  The frames of the two kernel programs are the generated class-R frames; the reference's frame is its run with the
  result dropped; the idealization rewrote nothing.
-/
import proofs.«415397_j71494025609906_3_alg».proof.Defs
import proofs.«415397_j71494025609906_3_alg».proof.Proof.Gen.Kernel
import proofs.«415397_j71494025609906_3_alg».proof.Proof.Gen.Kernel.Frame
import proofs.«415397_j71494025609906_3_alg».proof.Proof.Gen.KernelIdeal
import proofs.«415397_j71494025609906_3_alg».proof.Proof.Gen.KernelIdeal.Frame
import proofs.«415397_j71494025609906_3_alg».proof.Proof.Gen.ReferenceIdeal
import proofs.«415397_j71494025609906_3_alg».proof.Proof.Gen.Pre_finite_inputs
import proofs.«415397_j71494025609906_3_alg».proof.Proof.KernelValue
import proofs.«415397_j71494025609906_3_alg».proof.Proof.RefRows
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end at the mean of the rows' losses of the kernel's arguments: the kernel by its value leg, the
    reference — run from arguments that agree with the kernel's, whose labels the precondition puts in range — by
    its run read row by row. -/
theorem algebraic : Cert.algebraic_KernelIdeal_ReferenceIdeal := by
  intro m ρ m' ρ' hpre hagree
  refine ⟨fun c => (fun _ => Cert.CosineMean.mean (Cert.KernelIdeal.FinalArray.rows m c) (Cert.KernelIdeal.FinalArray.labs m c)),
    Cert.KernelIdeal.KernelValue.run m ρ, ?_⟩
  refine (θ_run Cert.ReferenceIdeal.defs _ _).mono (fun _ h c => ⟨(h c).1.trans ?_, (h c).2⟩)
    (Cert.ReferenceIdeal.ValueP.run (F := Ideal) m' ρ')
  have hl : ∀ i : Fin 131072,
      ((m' ((c.tc : Thread Cert.ReferenceIdeal.nD Cert.ReferenceIdeal.τ).loc Cert.ReferenceIdeal.main_arg1)) (ix1 i)).toNat < 1000 := by
    intro i
    rw [(hagree c).2]
    exact Cert.ReferenceIdeal.RefRows.labels_of_pre _ _ (hpre c) i
  refine ((Cert.ReferenceIdeal.ReadP.val_main_v12_eq _ _).trans (Cert.ReferenceIdeal.RefRows.ref_eq _ _ hl)).trans ?_
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
